-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S64x32x32 : Shape := ⟨3, ![64, 32, 32]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel

variable [Facts]

def fn {F : FTy → Type} [FloatOps F] (main_arg0 : FVec F S64x3x512x512 .f32) (main_arg1 : IVec S64x32x32 1) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  main_v3
-- ==== Kernel.lean ====
abbrev S64x3x512x512 : Shape := ⟨4, ![64, 3, 512, 512]⟩
abbrev S64x32x32 : Shape := ⟨3, ![64, 32, 32]⟩
abbrev S512 : Shape := ⟨1, ![512]⟩
abbrev S_ : Shape := ⟨0, ![]⟩
abbrev S32 : Shape := ⟨1, ![32]⟩
abbrev S512x1 : Shape := ⟨2, ![512, 1]⟩
abbrev S1x32 : Shape := ⟨2, ![1, 32]⟩
abbrev S512x32 : Shape := ⟨2, ![512, 32]⟩
abbrev S32x1 : Shape := ⟨2, ![32, 1]⟩
abbrev S1x512 : Shape := ⟨2, ![1, 512]⟩
abbrev S32x512 : Shape := ⟨2, ![32, 512]⟩
abbrev S2x3x512x512 : Shape := ⟨4, ![2, 3, 512, 512]⟩
abbrev S2x32x32 : Shape := ⟨3, ![2, 32, 32]⟩
abbrev S1x32x32 : Shape := ⟨3, ![1, 32, 32]⟩
abbrev S32x32 : Shape := ⟨2, ![32, 32]⟩
abbrev S512x512 : Shape := ⟨2, ![512, 512]⟩
abbrev S1x3x512x512 : Shape := ⟨4, ![1, 3, 512, 512]⟩
abbrev S3x512x512 : Shape := ⟨3, ![3, 512, 512]⟩
abbrev S1x512x512 : Shape := ⟨3, ![1, 512, 512]⟩

abbrev nBuf : Space → Nat
  | .hbm => 56
  | .vmem => 8
  | .smem => 0
  | _ => 0

abbrev bufTy : (tb : Table) → Fin (tcTables nBuf tb) → BufTy
  | .hbm, ⟨0, _⟩ => ⟨S64x3x512x512, .f32⟩
  | .hbm, ⟨1, _⟩ => ⟨S64x32x32, .i1⟩
  | .hbm, ⟨2, _⟩ => ⟨S512, .i32⟩
  | .hbm, ⟨3, _⟩ => ⟨S_, .i32⟩
  | .hbm, ⟨4, _⟩ => ⟨S_, .i32⟩
  | .hbm, ⟨5, _⟩ => ⟨S512, .i32⟩
  | .hbm, ⟨6, _⟩ => ⟨S512, .i32⟩
  | .hbm, ⟨7, _⟩ => ⟨S512, .i32⟩
  | .hbm, ⟨8, _⟩ => ⟨S_, .i32⟩
  | .hbm, ⟨9, _⟩ => ⟨S512, .i32⟩
  | .hbm, ⟨10, _⟩ => ⟨S512, .i1⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i1⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S512, .i32⟩
  | .hbm, ⟨21, _⟩ => ⟨S32, .i32⟩
  | .hbm, ⟨22, _⟩ => ⟨S512x1, .i32⟩
  | .hbm, ⟨23, _⟩ => ⟨S1x32, .i32⟩
  | .hbm, ⟨24, _⟩ => ⟨S512x32, .i32⟩
  | .hbm, ⟨25, _⟩ => ⟨S512x32, .i32⟩
  | .hbm, ⟨26, _⟩ => ⟨S512x32, .i1⟩
  | .hbm, ⟨27, _⟩ => ⟨S512x32, .f32⟩
  | .hbm, ⟨28, _⟩ => ⟨S512, .i32⟩
  | .hbm, ⟨29, _⟩ => ⟨S_, .i32⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S512, .i32⟩
  | .hbm, ⟨38, _⟩ => ⟨S512, .i32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S512, .i1⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S512, .i32⟩
  | .hbm, ⟨47, _⟩ => ⟨S32, .i32⟩
  | .hbm, ⟨48, _⟩ => ⟨S32x1, .i32⟩
  | .hbm, ⟨49, _⟩ => ⟨S1x512, .i32⟩
  | .hbm, ⟨50, _⟩ => ⟨S32x512, .i32⟩
  | .hbm, ⟨51, _⟩ => ⟨S32x512, .i32⟩
  | .hbm, ⟨52, _⟩ => ⟨S32x512, .i1⟩
  | .hbm, ⟨53, _⟩ => ⟨S32x512, .f32⟩
  | .hbm, ⟨54, _⟩ => ⟨S64x32x32, .f32⟩
  | .hbm, ⟨55, _⟩ => ⟨S64x3x512x512, .f32⟩
  | .local _ .vmem, ⟨0, _⟩ => ⟨S2x3x512x512, .f32⟩
  | .local _ .vmem, ⟨1, _⟩ => ⟨S2x3x512x512, .f32⟩
  | .local _ .vmem, ⟨2, _⟩ => ⟨S2x32x32, .f32⟩
  | .local _ .vmem, ⟨3, _⟩ => ⟨S2x32x32, .f32⟩
  | .local _ .vmem, ⟨4, _⟩ => ⟨S512x32, .f32⟩
  | .local _ .vmem, ⟨5, _⟩ => ⟨S32x512, .f32⟩
  | .local _ .vmem, ⟨6, _⟩ => ⟨S2x3x512x512, .f32⟩
  | .local _ .vmem, ⟨7, _⟩ => ⟨S2x3x512x512, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_c : Ref sig .tc := ⟨.hbm, 3, rfl⟩
abbrev main_call0_call0_v0 : Ref sig .tc := ⟨.hbm, 4, rfl⟩
abbrev main_call0_call0_v1 : Ref sig .tc := ⟨.hbm, 5, rfl⟩
abbrev main_call0_call0_v2 : Ref sig .tc := ⟨.hbm, 6, rfl⟩
abbrev main_call0_call0_v3 : Ref sig .tc := ⟨.hbm, 7, rfl⟩
abbrev main_call0_call0_v4 : Ref sig .tc := ⟨.hbm, 8, rfl⟩
abbrev main_call0_call0_v5 : Ref sig .tc := ⟨.hbm, 9, rfl⟩
abbrev main_call0_call0_v6 : Ref sig .tc := ⟨.hbm, 10, rfl⟩
abbrev main_call0_call0_v7 : Ref sig .tc := ⟨.hbm, 11, rfl⟩
abbrev main_call0_call0_v8 : Ref sig .tc := ⟨.hbm, 12, rfl⟩
abbrev main_call0_call0_c : Ref sig .tc := ⟨.hbm, 13, rfl⟩
abbrev main_call0_call0_v9 : Ref sig .tc := ⟨.hbm, 14, rfl⟩
abbrev main_call0_call0_v10 : Ref sig .tc := ⟨.hbm, 15, rfl⟩
abbrev main_call0_call0_v11 : Ref sig .tc := ⟨.hbm, 16, rfl⟩
abbrev main_call0_call0_c_0 : Ref sig .tc := ⟨.hbm, 17, rfl⟩
abbrev main_call0_call0_v12 : Ref sig .tc := ⟨.hbm, 18, rfl⟩
abbrev main_call0_call0_v13 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_c_0 : Ref sig .tc := ⟨.hbm, 29, rfl⟩
abbrev main_call0_call1_v0 : Ref sig .tc := ⟨.hbm, 30, rfl⟩
abbrev main_call0_call1_v1 : Ref sig .tc := ⟨.hbm, 31, rfl⟩
abbrev main_call0_call1_v2 : Ref sig .tc := ⟨.hbm, 32, rfl⟩
abbrev main_call0_call1_v3 : Ref sig .tc := ⟨.hbm, 33, rfl⟩
abbrev main_call0_call1_v4 : Ref sig .tc := ⟨.hbm, 34, rfl⟩
abbrev main_call0_call1_v5 : Ref sig .tc := ⟨.hbm, 35, rfl⟩
abbrev main_call0_call1_v6 : Ref sig .tc := ⟨.hbm, 36, rfl⟩
abbrev main_call0_call1_v7 : Ref sig .tc := ⟨.hbm, 37, rfl⟩
abbrev main_call0_call1_v8 : Ref sig .tc := ⟨.hbm, 38, rfl⟩
abbrev main_call0_call1_c : Ref sig .tc := ⟨.hbm, 39, rfl⟩
abbrev main_call0_call1_v9 : Ref sig .tc := ⟨.hbm, 40, rfl⟩
abbrev main_call0_call1_v10 : Ref sig .tc := ⟨.hbm, 41, rfl⟩
abbrev main_call0_call1_v11 : Ref sig .tc := ⟨.hbm, 42, rfl⟩
abbrev main_call0_call1_c_0 : Ref sig .tc := ⟨.hbm, 43, rfl⟩
abbrev main_call0_call1_v12 : Ref sig .tc := ⟨.hbm, 44, rfl⟩
abbrev main_call0_call1_v13 : Ref sig .tc := ⟨.hbm, 45, rfl⟩
abbrev main_call0_v10 : Ref sig .tc := ⟨.hbm, 46, rfl⟩
abbrev main_call0_v11 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_v15 : Ref sig .tc := ⟨.hbm, 51, rfl⟩
abbrev main_call0_v16 : Ref sig .tc := ⟨.hbm, 52, rfl⟩
abbrev main_call0_v17 : Ref sig .tc := ⟨.hbm, 53, rfl⟩
abbrev main_call0_v18 : Ref sig .tc := ⟨.hbm, 54, rfl⟩
abbrev main_v0 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x3x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S512 : S_.BroadcastsInDim S512 (![] : Fin 0 → Fin S512.rank)
  bcast_S512_S512x1_0 : S512.BroadcastsInDim S512x1 (![0] : Fin 1 → Fin S512x1.rank)
  bcast_S32_S1x32_1 : S32.BroadcastsInDim S1x32 (![1] : Fin 1 → Fin S1x32.rank)
  bcast_S512x1_S512x32_0_1 : S512x1.BroadcastsInDim S512x32 (![0, 1] : Fin 2 → Fin S512x32.rank)
  bcast_S1x32_S512x32_0_1 : S1x32.BroadcastsInDim S512x32 (![0, 1] : Fin 2 → Fin S512x32.rank)
  bcast_S32_S32x1_0 : S32.BroadcastsInDim S32x1 (![0] : Fin 1 → Fin S32x1.rank)
  bcast_S512_S1x512_1 : S512.BroadcastsInDim S1x512 (![1] : Fin 1 → Fin S1x512.rank)
  bcast_S32x1_S32x512_0_1 : S32x1.BroadcastsInDim S32x512 (![0, 1] : Fin 2 → Fin S32x512.rank)
  bcast_S1x512_S32x512_0_1 : S1x512.BroadcastsInDim S32x512 (![0, 1] : Fin 2 → Fin S32x512.rank)
  inb_S512x32_S512x32_0_0 : ∀ a, (![0, 0] : Fin 2 → Nat) a + S512x32.size a ≤ S512x32.size a
  h_S512x32 : 0 < S512x32.numel
  shapeCasts_S512x32_S512x32 : S512x32.ShapeCasts S512x32
  bitsLt_bf16_f32 : FTy.bits .bf16 < FTy.bits .f32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S2x32x32_S1x32x32_0_0_0 : ∀ a, (![0, 0, 0] : Fin 3 → Nat) a + S1x32x32.size a ≤ S2x32x32.size a
  h_S1x32x32 : 0 < S1x32x32.numel
  shapeCasts_S1x32x32_S32x32 : S1x32x32.ShapeCasts S32x32
  inb_S2x3x512x512_S1x3x512x512_0_0_0_0 : ∀ a, (![0, 0, 0, 0] : Fin 4 → Nat) a + S1x3x512x512.size a ≤ S2x3x512x512.size a
  h_S1x3x512x512 : 0 < S1x3x512x512.numel
  shapeCasts_S1x3x512x512_S3x512x512 : S1x3x512x512.ShapeCasts S3x512x512
  shapeCasts_S512x512_S1x512x512 : S512x512.ShapeCasts S1x512x512
  broadcasts_S1x512x512_S3x512x512 : S1x512x512.Broadcasts S3x512x512
  shapeCasts_S3x512x512_S1x3x512x512 : S3x512x512.ShapeCasts S1x3x512x512
  inb_S2x32x32_S1x32x32_1_0_0 : ∀ a, (![1, 0, 0] : Fin 3 → Nat) a + S1x32x32.size a ≤ S2x32x32.size a
  inb_S2x3x512x512_S1x3x512x512_1_0_0_0 : ∀ a, (![1, 0, 0, 0] : Fin 4 → Nat) a + S1x3x512x512.size a ≤ S2x3x512x512.size a
  dot_S512x32_S32x32_S512x32_1_0_0_1_n_n_wf : DotDims.WF S512x32 S32x32 S512x32 [1] [0] [0] [1] [] []
  dot_S512x32_S32x512_S512x512_1_0_0_1_n_n_wf : DotDims.WF S512x32 S32x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x3x512x512.size a ≤ S64x3x512x512.size a
  hwx0_0 : ∀ i : grid0.Coords, EltTy.bits .f32 = 32 ∨ (Rect.block (s := S64x3x512x512) S2x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x32x32.size a ≤ S64x32x32.size a
  hwx0_1 : ∀ i : grid0.Coords, EltTy.bits .f32 = 32 ∨ (Rect.block (s := S64x32x32) S2x32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S512x32.size a
  hwx0_2 : ∀ i : grid0.Coords, EltTy.bits .f32 = 32 ∨ (Rect.block (s := S512x32) S512x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x512.size a
  hwx0_3 : ∀ i : grid0.Coords, EltTy.bits .f32 = 32 ∨ (Rect.block (s := S32x512) S32x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x3x512x512.size a ≤ S64x3x512x512.size a
  hwx0_4 : ∀ i : grid0.Coords, EltTy.bits .f32 = 32 ∨ (Rect.block (s := S64x3x512x512) S2x3x512x512.size (cc0_transform_4 i) (hinb0_4 i)).WholeWords (EltTy.packing .f32)

variable [Facts₀]

def dot_S512x32_S32x32_S512x32_1_0_0_1_n_n : DotDims S512x32 S32x32 S512x32 where
  lhsContracting := [1]
  rhsContracting := [0]
  lhsNonContracting := [0]
  rhsNonContracting := [1]
  lhsBatch := []
  rhsBatch := []
  wf := dot_S512x32_S32x32_S512x32_1_0_0_1_n_n_wf
def dot_S512x32_S32x512_S512x512_1_0_0_1_n_n : DotDims S512x32 S32x512 S512x512 where
  lhsContracting := [1]
  rhsContracting := [0]
  lhsNonContracting := [0]
  rhsNonContracting := [1]
  lhsBatch := []
  rhsBatch := []
  wf := dot_S512x32_S32x512_S512x512_1_0_0_1_n_n_wf

abbrev win0_0 : Pipeline.Window sig grid0 :=
  Pipeline.Window.ofSpec (Memref.whole main_arg0) S2x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v18) S2x32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v8) S512x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v17) S32x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2x3x512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x3x512x512 : Shape := ⟨4, ![64, 3, 512, 512]⟩
abbrev S64x32x32 : Shape := ⟨3, ![64, 32, 32]⟩
abbrev S64x32x16x32 : Shape := ⟨4, ![64, 32, 16, 32]⟩
abbrev S64x512x32 : Shape := ⟨3, ![64, 512, 32]⟩
abbrev S64x512x32x16 : Shape := ⟨4, ![64, 512, 32, 16]⟩
abbrev S64x512x512 : Shape := ⟨3, ![64, 512, 512]⟩
abbrev S64x1x512x512 : Shape := ⟨4, ![64, 1, 512, 512]⟩

abbrev nBuf : Space → Nat
  | .hbm => 10
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S64x32x32, .i1⟩
  | .hbm, ⟨2, _⟩ => ⟨S64x32x16x32, .i1⟩
  | .hbm, ⟨3, _⟩ => ⟨S64x512x32, .i1⟩
  | .hbm, ⟨4, _⟩ => ⟨S64x512x32x16, .i1⟩
  | .hbm, ⟨5, _⟩ => ⟨S64x512x512, .i1⟩
  | .hbm, ⟨6, _⟩ => ⟨S64x1x512x512, .i1⟩
  | .hbm, ⟨7, _⟩ => ⟨S64x1x512x512, .f32⟩
  | .hbm, ⟨8, _⟩ => ⟨S64x3x512x512, .f32⟩
  | .hbm, ⟨9, _⟩ => ⟨S64x3x512x512, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]

class Facts₀ : Prop where
  bcast_S64x32x32_S64x32x16x32_0_1_3 : S64x32x32.BroadcastsInDim S64x32x16x32 (![0, 1, 3] : Fin 3 → Fin S64x32x16x32.rank)
  shapeCasts_S64x32x16x32_S64x512x32 : S64x32x16x32.ShapeCasts S64x512x32
  bcast_S64x512x32_S64x512x32x16_0_1_2 : S64x512x32.BroadcastsInDim S64x512x32x16 (![0, 1, 2] : Fin 3 → Fin S64x512x32x16.rank)
  shapeCasts_S64x512x32x16_S64x512x512 : S64x512x32x16.ShapeCasts S64x512x512
  bcast_S64x512x512_S64x1x512x512_0_2_3 : S64x512x512.BroadcastsInDim S64x1x512x512 (![0, 2, 3] : Fin 3 → Fin S64x1x512x512.rank)
  bcast_S64x1x512x512_S64x3x512x512_0_1_2_3 : S64x1x512x512.BroadcastsInDim S64x3x512x512 (![0, 1, 2, 3] : Fin 4 → Fin S64x3x512x512.rank)

variable [Facts₀]

class Facts : Prop extends Facts₀ where

variable [Facts]
-- ==== Proof.LibOneHot.lean ====
/-
  Expansion by 0/1 matrices. A kernel may repeat each entry of a small array over a patch of a large one by
  multiplying with matrices whose entries are 0 or 1 ("one-hot" rows or columns: exactly one 1 per row, resp. per
  column), where a reference repeats the entries by a layout operation. Over the extended reals a sum in which all
  summands but one are 0·(something) is that one summand, with no finiteness needed, because 0 annihilates every
  extended real. This file has:

  * a plain matrix product into the zero accumulator, read at an index, as the sum over the contracted coordinate;
  * the two one-hot sums (the 0/1 factor on the left, on the right);
  * the word arithmetic that makes the 0/1 entries: jnp's integer floor division by 16 of a word below 512, written
    as its lowered select around the truncating quotient and the remainder, is the natural-number quotient; a
    comparison for equality of two small words is the comparison of the numbers; a one-bit word converted to a float
    is 0 or 1.
-/
import Idealize.ShloMosaic.PureOps.Ideal.Laws
import Idealize.ShloMosaic.Lib.ValueIdx

noncomputable section

open scoped BigOperators

namespace Cert.LibOneHot

open Idealize.ShloMosaic Idealize.ShloMosaic.ValueIdx

/-! ## A plain matrix product at an index -/

/-- The product of an M×K by a K×N matrix (contracting the left operand's axis 1 with the right operand's axis 0, no
    batch axis) into the zero accumulator, read at row `a` and column `b`, is `∑ c, A[a,c] · B[c,b]`. At the ideal
    values; `w` is the well-formedness a program states for its own record. -/
theorem matmul_plain_zero_apply {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    FloatOps.matmul (⟨[1], [0], [0], [1], [], [], w⟩ : DotDims _ _ _) prec A B
        (constant ⟨2, ![M, N]⟩ .f32 0x00000000#32) (ix2 a b)
      = ∑ c : Fin K, A (ix2 a c) * B (ix2 c b) := by
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## One-hot sums over the extended reals -/

/-- A sum whose left factors are 1 at `a` and 0 elsewhere picks the right factor at `a`. -/
theorem sum_onehot_mul {n : Nat} (a : Fin n) (e f : Fin n → EReal) (he : ∀ k, e k = if k = a then 1 else 0) :
    ∑ k : Fin n, e k * f k = f a := by
  rw [Finset.sum_eq_single a (fun k _ hk => by rw [he, if_neg hk, zero_mul]) (fun h => absurd (Finset.mem_univ a) h),
    he, if_pos rfl, one_mul]

/-- A sum whose right factors are 1 at `a` and 0 elsewhere picks the left factor at `a`. -/
theorem sum_mul_onehot {n : Nat} (a : Fin n) (f e : Fin n → EReal) (he : ∀ k, e k = if k = a then 1 else 0) :
    ∑ k : Fin n, f k * e k = f a := by
  rw [Finset.sum_eq_single a (fun k _ hk => by rw [he, if_neg hk, mul_zero]) (fun h => absurd (Finset.mem_univ a) h),
    he, if_pos rfl, mul_one]

/-! ## The words behind the 0/1 entries -/

/-- The sign of a 32-bit word read signed, as a word: 0, −1 or 1. -/
def sgnWord (x : BitVec 32) : BitVec 32 := if x = 0 then 0 else if x.msb then -1 else 1

/-- jnp's integer floor division as it is lowered: the truncating quotient, less one where the operands' signs
    differ and the remainder is not zero. -/
def floorDivWord (x d : BitVec 32) : BitVec 32 :=
  Scalar.select
    (IntOp.andi (IntOp.cmpi .ne (sgnWord x) (sgnWord d)) (IntOp.cmpi .ne (IntOp.remsi .host x d) 0#32))
    (IntOp.subi (IntOp.divsi .host x d) 1#32)
    (IntOp.divsi .host x d)

/-- Below 512 the floor division by 16 is the quotient of the natural numbers (checked at each of the 512 words). -/
theorem floorDivWord_16 : ∀ h : Fin 512, floorDivWord (BitVec.ofNat 32 h.val) 16#32 = BitVec.ofNat 32 (h.val / 16) := by
  decide +kernel

/-- Two words below 32 are equal words exactly when they are equal numbers. -/
theorem cmpi_eq_small : ∀ a b : Fin 32,
    IntOp.cmpi .eq (BitVec.ofNat 32 a.val) (BitVec.ofNat 32 b.val) = if a.val = b.val then 1#1 else 0#1 := by
  decide +kernel

/-- A one-bit word chosen by a proposition converts to the float 1 or 0 by it. -/
theorem uitofp_bit (P : Prop) [Decidable P] :
    FloatOps.uitofp (F := Ideal) .f32 (if P then 1#1 else 0#1) = if P then (1 : EReal) else 0 := by
  by_cases h : P
  · rw [if_pos h, if_pos h]; show (((1#1 : BitVec 1).toNat : ℝ) : EReal) = 1; simp
  · rw [if_neg h, if_neg h]; show (((0#1 : BitVec 1).toNat : ℝ) : EReal) = 0; simp

end Cert.LibOneHot

end
-- ==== Proof.Body.lean ====
/-
  What the kernel body leaves in the output block, as one function of its four input blocks. A block holds two batch
  members. For each the body forms the pixel factor as a product of three matrices — the row expansion matrix
  [512, 32], the member's mask [32, 32], the column expansion matrix [32, 512] — and multiplies the member's three
  channels by it. Read at an index: pixel (b, c, h, w) of the block is

      x[b, c, h, w] · ∑ q, (∑ p, E[h, p] · M[b, p, q]) · W[q, w].

  The changes of float format between the products are the identity on the ideal values, and the casts that drop or
  add the unit batch axis and the broadcast over channels only re-index.
-/
import proofs.«156275_j4492535792036_1_alg».proof.Proof.Gen.KernelIdeal.Frame
import proofs.«156275_j4492535792036_1_alg».proof.Proof.LibOneHot
import Idealize.ShloMosaic.Lib.Pipeline.Value

noncomputable section

open scoped BigOperators

namespace Cert.KernelIdeal.BodyValue

open Cert.KernelIdeal Cert.KernelIdeal.Gen Cert.LibOneHot
open Idealize.ShloMosaic Idealize.ShloMosaic.ValueIdx

/-! ## The two matrix products -/

/-- [512, 32] by [32, 32] into zeros, at (h, q). -/
theorem mat1_apply (A : FVec Ideal S512x32 .bf16) (B : FVec Ideal S32x32 .bf16) (h : Fin 512) (q : Fin 32) :
    matmul dot_S512x32_S32x32_S512x32_1_0_0_1_n_n none A B (constant S512x32 .f32 0x00000000#32) (ix2 h q)
      = ∑ p : Fin 32, A (ix2 h p) * B (ix2 p q) :=
  matmul_plain_zero_apply (M := 512) (K := 32) (N := 32) Facts₀.dot_S512x32_S32x32_S512x32_1_0_0_1_n_n_wf none A B h q

/-- [512, 32] by [32, 512] into zeros, at (h, w). -/
theorem mat2_apply (A : FVec Ideal S512x32 .bf16) (B : FVec Ideal S32x512 .bf16) (h w : Fin 512) :
    matmul dot_S512x32_S32x512_S512x512_1_0_0_1_n_n none A B (constant S512x512 .f32 0x00000000#32) (ix2 h w)
      = ∑ q : Fin 32, A (ix2 h q) * B (ix2 q w) :=
  matmul_plain_zero_apply (M := 512) (K := 32) (N := 512) Facts₀.dot_S512x32_S32x512_S512x512_1_0_0_1_n_n_wf none A B h w

/-! ## The layout operations of the payload, each at an index -/

section Layout
variable {α : Type}

theorem cast_mask (v : S1x32x32.Idx → α) (p q : Fin 32) :
    shapeCast S32x32 v shapeCasts_S1x32x32_S32x32 (ix2 p q) = v (ix3 (0 : Fin 1) p q) :=
  shapeCast_apply v _ _ _ (by rw [Shape.rowMajor_val_three, Shape.rowMajor_val_two]; show (0 * 32 + p.val) * 32 + q.val = p.val * 32 + q.val; omega)

theorem cast_img_drop (v : S1x3x512x512.Idx → α) (c : Fin 3) (h w : Fin 512) :
    shapeCast S3x512x512 v shapeCasts_S1x3x512x512_S3x512x512 (ix3 c h w) = v (ix4 (0 : Fin 1) c h w) :=
  shapeCast_apply v _ _ _ (by rw [Shape.rowMajor_val_four, Shape.rowMajor_val_three]; show ((0 * 3 + c.val) * 512 + h.val) * 512 + w.val = (c.val * 512 + h.val) * 512 + w.val; omega)

theorem cast_img_add (v : S3x512x512.Idx → α) (c : Fin 3) (h w : Fin 512) :
    shapeCast S1x3x512x512 v shapeCasts_S3x512x512_S1x3x512x512 (ix4 (0 : Fin 1) c h w) = v (ix3 c h w) :=
  shapeCast_apply v _ _ _ (by rw [Shape.rowMajor_val_four, Shape.rowMajor_val_three]; show (c.val * 512 + h.val) * 512 + w.val = ((0 * 3 + c.val) * 512 + h.val) * 512 + w.val; omega)

theorem cast_pix_add (v : S512x512.Idx → α) (h w : Fin 512) :
    shapeCast S1x512x512 v shapeCasts_S512x512_S1x512x512 (ix3 (0 : Fin 1) h w) = v (ix2 h w) :=
  shapeCast_apply v _ _ _ (by rw [Shape.rowMajor_val_three, Shape.rowMajor_val_two]; show h.val * 512 + w.val = (0 * 512 + h.val) * 512 + w.val; omega)

theorem bcast_channels (v : S1x512x512.Idx → α) (c : Fin 3) (h w : Fin 512) :
    broadcastTo S3x512x512 v broadcasts_S1x512x512_S3x512x512 (ix3 c h w) = v (ix3 (0 : Fin 1) h w) :=
  broadcastTo_apply v _ _ _ (fun a => match a with
    | ⟨0, _⟩ => by show (0 : Nat) = if (1 : Nat) = 1 then 0 else c.val; rw [if_pos rfl]
    | ⟨1, _⟩ => by show h.val = if (512 : Nat) = 1 then 0 else h.val; rw [if_neg (by decide)]
    | ⟨2, _⟩ => by show w.val = if (512 : Nat) = 1 then 0 else w.val; rw [if_neg (by decide)])

end Layout

/-! ## The payload at an index -/

/-- One batch member's store: the member's image times the triple product, channel by channel. -/
theorem pay_apply (v0 : FVec Ideal S512x32 .f32) (v3 : FVec Ideal S32x512 .f32) (v6 : FVec Ideal S1x32x32 .f32)
    (v12 : FVec Ideal S1x3x512x512 .f32) (c : Fin 3) (h w : Fin 512) :
    k0_pay4 (F := Ideal) v0 v3 v6 v12 (ix4 (0 : Fin 1) c h w)
      = v12 (ix4 (0 : Fin 1) c h w) * ∑ q : Fin 32, (∑ p : Fin 32, v0 (ix2 h p) * v6 (ix3 (0 : Fin 1) p q)) * v3 (ix2 q w) := by
  unfold k0_pay4 k0_pay2 k0_pay3
  dsimp only
  rw [cast_img_add, mulf_apply, cast_img_drop, bcast_channels, cast_pix_add, mat2_apply]
  simp only [truncf_apply, shapeCast_self, mat1_apply, cast_mask]

/-- The second member's store computes the same function of its loads. -/
theorem pay_second (v0 : FVec Ideal S512x32 .f32) (v3 : FVec Ideal S32x512 .f32) (v20 : FVec Ideal S1x32x32 .f32)
    (v26 : FVec Ideal S1x3x512x512 .f32) : k0_pay1 (F := Ideal) (k0_pay5 v0 v3 v20 v26) = k0_pay4 v0 v3 v20 v26 := rfl

/-! ## The block -/

/-- The pixel factor of member `b` of a block at (h, w), from the block's mask and the two expansion matrices. -/
def pix (x1 : FVec Ideal S2x32x32 .f32) (x2 : FVec Ideal S512x32 .f32) (x3 : FVec Ideal S32x512 .f32)
    (b : Fin 2) (h w : Fin 512) : EReal :=
  ∑ q : Fin 32, (∑ p : Fin 32, x2 (ix2 h p) * x1 (ix3 b p q)) * x3 (ix2 q w)

/-- The output block as a function of the four input blocks. -/
def blockOut (x0 : FVec Ideal S2x3x512x512 .f32) (x1 : FVec Ideal S2x32x32 .f32) (x2 : FVec Ideal S512x32 .f32)
    (x3 : FVec Ideal S32x512 .f32) : FVec Ideal S2x3x512x512 .f32 :=
  fun y => x0 y * pix x1 x2 x3 ⟨(y 0).val, (y 0).isLt⟩ ⟨(y 2).val, (y 2).isLt⟩ ⟨(y 3).val, (y 3).isLt⟩

theorem blockOut_apply (x0 : FVec Ideal S2x3x512x512 .f32) (x1 : FVec Ideal S2x32x32 .f32) (x2 : FVec Ideal S512x32 .f32)
    (x3 : FVec Ideal S32x512 .f32) (b : Fin 2) (c : Fin 3) (h w : Fin 512) :
    blockOut x0 x1 x2 x3 (ix4 b c h w) = x0 (ix4 b c h w) * pix x1 x2 x3 b h w := rfl

/-- Where the literal rectangles of the body's accesses put their indices: member 0 or 1 of the block, all of the
    expansion matrices. -/
theorem emb_img0 (c : Fin 3) (h w : Fin 512) : r0_3.emb (ix4 (0 : Fin 1) c h w) = ix4 (0 : Fin 2) c h w := by
  funext a; apply Fin.ext
  match a with
  | ⟨0, _⟩ => rfl
  | ⟨1, _⟩ => show 0 + 1 * c.val = c.val; omega
  | ⟨2, _⟩ => show 0 + 1 * h.val = h.val; omega
  | ⟨3, _⟩ => show 0 + 1 * w.val = w.val; omega

theorem emb_img1 (c : Fin 3) (h w : Fin 512) : r0_5.emb (ix4 (0 : Fin 1) c h w) = ix4 (1 : Fin 2) c h w := by
  funext a; apply Fin.ext
  match a with
  | ⟨0, _⟩ => rfl
  | ⟨1, _⟩ => show 0 + 1 * c.val = c.val; omega
  | ⟨2, _⟩ => show 0 + 1 * h.val = h.val; omega
  | ⟨3, _⟩ => show 0 + 1 * w.val = w.val; omega

theorem idx_mask0 (p q : Fin 32) : r0_2.idx (ix3 (0 : Fin 1) p q) = ix3 (0 : Fin 2) p q := by
  funext a; apply Fin.ext
  match a with
  | ⟨0, _⟩ => rfl
  | ⟨1, _⟩ => show 0 + 1 * p.val = p.val; omega
  | ⟨2, _⟩ => show 0 + 1 * q.val = q.val; omega

theorem idx_mask1 (p q : Fin 32) : r0_4.idx (ix3 (0 : Fin 1) p q) = ix3 (1 : Fin 2) p q := by
  funext a; apply Fin.ext
  match a with
  | ⟨0, _⟩ => rfl
  | ⟨1, _⟩ => show 0 + 1 * p.val = p.val; omega
  | ⟨2, _⟩ => show 0 + 1 * q.val = q.val; omega

theorem idx_rows (h : Fin 512) (p : Fin 32) : r0_0.idx (ix2 h p) = ix2 h p := by
  funext a; apply Fin.ext
  match a with
  | ⟨0, _⟩ => show 0 + 1 * h.val = h.val; omega
  | ⟨1, _⟩ => show 0 + 1 * p.val = p.val; omega

theorem idx_cols (q : Fin 32) (w : Fin 512) : r0_1.idx (ix2 q w) = ix2 q w := by
  funext a; apply Fin.ext
  match a with
  | ⟨0, _⟩ => show 0 + 1 * q.val = q.val; omega
  | ⟨1, _⟩ => show 0 + 1 * w.val = w.val; omega

variable (x0 : FVec Ideal S2x3x512x512 .f32) (x1 : FVec Ideal S2x32x32 .f32) (x2 : FVec Ideal S512x32 .f32)
  (x3 : FVec Ideal S32x512 .f32)

/-- The store of member 0 is the block function on member 0's rectangle. -/
theorem piece0 (x : S1x3x512x512.Idx) :
    k0_pay4 (F := Ideal) (View.ld x2 r0_0) (View.ld x3 r0_1) (View.ld x1 r0_2) (View.ld x0 r0_3) x = blockOut x0 x1 x2 x3 (r0_3.emb x) := by
  obtain ⟨a, c, h, w, rfl⟩ : ∃ (a : Fin 1) (c : Fin 3) (h w : Fin 512), x = ix4 a c h w := ⟨x 0, x 1, x 2, x 3, eq_ix4 x⟩
  obtain rfl : a = 0 := Subsingleton.elim _ _
  rw [pay_apply, emb_img0, blockOut_apply]
  show x0 (r0_3.idx (ix4 (0 : Fin 1) c h w)) * ∑ q : Fin 32, (∑ p : Fin 32, x2 (r0_0.idx (ix2 h p)) * x1 (r0_2.idx (ix3 (0 : Fin 1) p q))) * x3 (r0_1.idx (ix2 q w)) = _
  rw [show r0_3.idx (ix4 (0 : Fin 1) c h w) = ix4 (0 : Fin 2) c h w from emb_img0 c h w]
  simp only [idx_rows, idx_cols, idx_mask0]
  rfl

/-- The store of member 1 is the block function on member 1's rectangle. -/
theorem piece1 (x : S1x3x512x512.Idx) :
    k0_pay1 (F := Ideal) (k0_pay5 (View.ld x2 r0_0) (View.ld x3 r0_1) (View.ld x1 r0_4) (View.ld x0 r0_5)) x = blockOut x0 x1 x2 x3 (r0_5.emb x) := by
  obtain ⟨a, c, h, w, rfl⟩ : ∃ (a : Fin 1) (c : Fin 3) (h w : Fin 512), x = ix4 a c h w := ⟨x 0, x 1, x 2, x 3, eq_ix4 x⟩
  obtain rfl : a = 0 := Subsingleton.elim _ _
  rw [pay_second, pay_apply, emb_img1, blockOut_apply]
  show x0 (r0_5.idx (ix4 (0 : Fin 1) c h w)) * ∑ q : Fin 32, (∑ p : Fin 32, x2 (r0_0.idx (ix2 h p)) * x1 (r0_4.idx (ix3 (0 : Fin 1) p q))) * x3 (r0_1.idx (ix2 q w)) = _
  rw [show r0_5.idx (ix4 (0 : Fin 1) c h w) = ix4 (1 : Fin 2) c h w from emb_img1 c h w]
  simp only [idx_rows, idx_cols, idx_mask1]
  rfl

/-- The body's two stores tile the block, and each is the block function on its rectangle: the block after the body
    is the block function. -/
theorem out_eq : out0_4 (F := Ideal) x0 x1 x2 x3 = blockOut x0 x1 x2 x3 := by
  funext y
  unfold out0_4
  refine View.canon_apply_of_pieces (Val := Elt Ideal) (S := S2x3x512x512) (e := .f32) (blockOut x0 x1 x2 x3) _ ?_ y (cover0_4 _ _ y)
  intro p hp x
  simp only [List.mem_cons, List.not_mem_nil, or_false] at hp
  rcases hp with rfl | rfl
  · exact piece1 x0 x1 x2 x3 x
  · exact piece0 x0 x1 x2 x3 x

end Cert.KernelIdeal.BodyValue

end
-- ==== Proof.Host.lean ====
/-
  The arrays the kernel region finds. Before the region the host builds three arrays the kernel's windows stage:
  the row expansion matrix [512, 32], whose entry (h, p) is the bit "h / 16 = p" converted to a float — the quotient
  computed as jnp's floor division of the row number by 16 —, the column expansion matrix [32, 512], whose entry
  (q, w) is the bit "q = w / 16", and the mask converted to floats. Read at an index the first two are 1 or 0.
-/
import proofs.«156275_j4492535792036_1_alg».proof.Proof.Gen.KernelIdeal.Frame
import proofs.«156275_j4492535792036_1_alg».proof.Proof.LibOneHot
import Idealize.ShloMosaic.Lib.StableHlo.Run

noncomputable section

namespace Cert.KernelIdeal.HostValue

open Cert.KernelIdeal Cert.KernelIdeal.Gen Cert.LibOneHot
open Idealize.ShloMosaic Idealize.ShloMosaic.TcCoe Idealize.ShloMosaic.ValueIdx Idealize.ShloMosaic.StableHlo Idealize.SL.Sem

/-! ## The host's operations as vector terms -/

/-- jnp's floor division by 16 of a vector of 512 words, operation by operation: the truncating quotient, less one
    where the signs of dividend and divisor differ and the remainder is not zero. -/
def fdivVec (x : IVec S512 32) : IVec S512 32 :=
  select
    (andi
      (cmpi .ne (signi x) (broadcastInDim S512 ![] bcast_S_S512 (signi (id (constantI S_ 32 16#32)))))
      (cmpi .ne (Host.remsi x (broadcastInDim S512 ![] bcast_S_S512 (id (constantI S_ 32 16#32))))
        (broadcastInDim S512 ![] bcast_S_S512 (constantI S_ 32 0#32))))
    (subi (Host.divsi x (broadcastInDim S512 ![] bcast_S_S512 (id (constantI S_ 32 16#32))))
      (broadcastInDim S512 ![] bcast_S_S512 (constantI S_ 32 1#32)))
    (Host.divsi x (broadcastInDim S512 ![] bcast_S_S512 (id (constantI S_ 32 16#32))))

/-- The bits of the row expansion matrix: the patch row of image row h, down the rows, against 0 … 31 along the
    columns. -/
def rowBitsVec : IVec S512x32 1 :=
  cmpi .eq
    (broadcastInDim S512x32 ![0, 1] bcast_S512x1_S512x32_0_1
      (broadcastInDim S512x1 ![0] bcast_S512_S512x1_0 (fdivVec (iotaInDim S512 32 0))))
    (broadcastInDim S512x32 ![0, 1] bcast_S1x32_S512x32_0_1
      (broadcastInDim S1x32 ![1] bcast_S32_S1x32_1 (iotaInDim S32 32 0)))

/-- The bits of the column expansion matrix: 0 … 31 down the rows against the patch column of image column w along
    the columns. -/
def colBitsVec : IVec S32x512 1 :=
  cmpi .eq
    (broadcastInDim S32x512 ![0, 1] bcast_S32x1_S32x512_0_1
      (broadcastInDim S32x1 ![0] bcast_S32_S32x1_0 (iotaInDim S32 32 0)))
    (broadcastInDim S32x512 ![0, 1] bcast_S1x512_S32x512_0_1
      (broadcastInDim S1x512 ![1] bcast_S512_S1x512_1 (fdivVec (iotaInDim S512 32 0))))

/-- At an index the broadcasts select a coordinate and the rest is word arithmetic on it. -/
theorem rowBitsVec_apply (h : Fin 512) (p : Fin 32) :
    rowBitsVec (ix2 h p) = IntOp.cmpi .eq (floorDivWord (BitVec.ofNat 32 h.val) 16#32) (BitVec.ofNat 32 p.val) := rfl

theorem colBitsVec_apply (q : Fin 32) (w : Fin 512) :
    colBitsVec (ix2 q w) = IntOp.cmpi .eq (BitVec.ofNat 32 q.val) (floorDivWord (BitVec.ofNat 32 w.val) 16#32) := rfl

/-- The bit "h / 16 = p". -/
theorem rowBit_eq (h : Fin 512) (p : Fin 32) : rowBitsVec (ix2 h p) = if h.val / 16 = p.val then 1#1 else 0#1 := by
  have hq : h.val / 16 < 32 := by have := h.isLt; omega
  rw [rowBitsVec_apply, floorDivWord_16 h]
  exact cmpi_eq_small ⟨h.val / 16, hq⟩ p

/-- The bit "q = w / 16". -/
theorem colBit_eq (q : Fin 32) (w : Fin 512) : colBitsVec (ix2 q w) = if q.val = w.val / 16 then 1#1 else 0#1 := by
  have hq : w.val / 16 < 32 := by have := w.isLt; omega
  rw [colBitsVec_apply, floorDivWord_16 w]
  exact cmpi_eq_small q ⟨w.val / 16, hq⟩

/-! ## The arrays at region entry -/

section AnyInstance

variable {F : FTy → Type} [FloatOps F]
variable (m : (ℓ : Loc nD τ sig) → Buf (Elt F) ℓ)

set_option maxHeartbeats 4000000 in
/-- The row expansion matrix the region finds is the conversion of those bits. -/
theorem rowMat (c : Dev nD) :
    (V m c main_call0_v8 : S512x32.Idx → Elt F .f32) = uitofp .f32 rowBitsVec := by
  dsimp only [V, hostOps0]
  after_results_simp
  rfl

set_option maxHeartbeats 4000000 in
/-- The column expansion matrix likewise. -/
theorem colMat (c : Dev nD) :
    (V m c main_call0_v17 : S32x512.Idx → Elt F .f32) = uitofp .f32 colBitsVec := by
  dsimp only [V, hostOps0]
  after_results_simp
  rfl

set_option maxHeartbeats 4000000 in
/-- The float mask the region finds is the conversion of the mask argument as launched. -/
theorem maskArr (c : Dev nD) :
    (V m c main_call0_v18 : S64x32x32.Idx → Elt F .f32) = uitofp .f32 (m ((c : Thread nD τ).loc main_arg1)) := by
  dsimp only [V, hostOps0]
  after_results_simp
  rfl

end AnyInstance

/-! ## At the ideal values: entries 1 and 0 -/

variable (m : (ℓ : Loc nD τ sig) → Buf (Elt Ideal) ℓ)

theorem rowMat_apply (c : Dev nD) (h : Fin 512) (p : Fin 32) :
    (V m c main_call0_v8 : S512x32.Idx → EReal) (ix2 h p) = if h.val / 16 = p.val then (1 : EReal) else 0 := by
  rw [rowMat m c]
  show FloatOps.uitofp (F := Ideal) .f32 (rowBitsVec (ix2 h p)) = _
  rw [rowBit_eq]
  exact uitofp_bit _

theorem colMat_apply (c : Dev nD) (q : Fin 32) (w : Fin 512) :
    (V m c main_call0_v17 : S32x512.Idx → EReal) (ix2 q w) = if q.val = w.val / 16 then (1 : EReal) else 0 := by
  rw [colMat m c]
  show FloatOps.uitofp (F := Ideal) .f32 (colBitsVec (ix2 q w)) = _
  rw [colBit_eq]
  exact uitofp_bit _

end Cert.KernelIdeal.HostValue

end
-- ==== Proof.Spec.lean ====
/-
  What both programs compute, as one function of the two argument arrays. The image `x` has shape [64, 3, 512, 512]
  (batch, channel, row, column); the keep mask has one bit per batch member and 16×16 patch, shape [64, 32, 32]. Pixel
  (row h, column w) lies in patch (h / 16, w / 16), and the result is `x` with every pixel multiplied by its patch's
  bit read as the number 0 or 1, the same factor for the three channels.
-/
import Idealize.ShloMosaic.PureOps.Ideal
import Idealize.ShloMosaic.Lib.ValueIdx

noncomputable section

namespace Cert.PatchMask

open Idealize.ShloMosaic Idealize.ShloMosaic.ValueIdx

/-- The image's shape and the mask's. -/
abbrev SImg : Shape := ⟨4, ![64, 3, 512, 512]⟩
abbrev SMask : Shape := ⟨3, ![64, 32, 32]⟩

/-- The mask index of the patch a pixel lies in: same batch member, row and column divided by 16. -/
def patchOf (i : SImg.Idx) : SMask.Idx :=
  ix3 (n0 := 64) (n1 := 32) (n2 := 32) ⟨(i 0).val, (i 0).isLt⟩
    ⟨(i 2).val / 16, by have h : (i 2).val < 512 := (i 2).isLt; omega⟩
    ⟨(i 3).val / 16, by have h : (i 3).val < 512 := (i 3).isLt; omega⟩

/-- The masked image: each pixel times its patch's bit as 0 or 1. -/
def masked (x : FVec Ideal SImg .f32) (mk : IVec SMask 1) : FVec Ideal SImg .f32 :=
  fun i => x i * FloatOps.uitofp (F := Ideal) .f32 (mk (patchOf i))

end Cert.PatchMask

end
-- ==== Proof.Blocks.lean ====
/-
  From blocks to the whole array. Grid point t (of 32) handles batch members 2t and 2t + 1: the image and output
  windows' blocks are [2, 3, 512, 512] at block index (t, 0, 0, 0), the mask window's [2, 32, 32] at (t, 0, 0), and the
  two expansion matrices are staged whole at every point. At the point's blocks the triple product collapses, by the
  two one-hot sums, to the mask entry of the pixel's patch: what point t writes back is block t of the masked image. The
  32 blocks cover the 64 batch members, so the output array ends as the masked image.
-/
import proofs.«156275_j4492535792036_1_alg».proof.Proof.Gen.KernelIdeal.Value
import proofs.«156275_j4492535792036_1_alg».proof.Proof.Body
import proofs.«156275_j4492535792036_1_alg».proof.Proof.Host
import proofs.«156275_j4492535792036_1_alg».proof.Proof.Spec

noncomputable section

open scoped BigOperators

namespace Cert.KernelIdeal.ArrayValue

open Cert.KernelIdeal Cert.KernelIdeal.Gen Cert.LibOneHot Cert.PatchMask
open Cert.KernelIdeal.BodyValue Cert.KernelIdeal.HostValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The windows' block indices over the grid: the image, mask and output windows move with the point along the batch
    axis; the expansion matrices stay. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 4) = t.val ∧ win0_4.index t (1 : Fin 4) = 0 ∧ win0_4.index t (2 : Fin 4) = 0 ∧ win0_4.index t (3 : Fin 4) = 0 :=
  (by decide +kernel : ∀ t : Fin grid0.N, _)

theorem point_lt (t : Fin cfg0.N) : t.val < 32 := by
  have h := t.isLt; have hN : cfg0.N = 32 := N_0; omega

theorem lt_points (n : Nat) (h : n < 32) : n < cfg0.N := by
  rw [show cfg0.N = 32 from N_0]; exact h

/-- Batch member `b` of point `t`'s blocks is member `2t + b` of the arrays. -/
def member (t : Fin cfg0.N) (b : Fin 2) : Fin 64 := ⟨2 * t.val + b.val, by have := point_lt t; have := b.isLt; omega⟩

/-! ## The input blocks at an index -/

/-- The point's four input blocks, at their literal types. -/
abbrev xblk (c : Dev nD) (t : Fin cfg0.N) : FVec Ideal S2x3x512x512 .f32 := iblk m c 0 t
abbrev mblk (c : Dev nD) (t : Fin cfg0.N) : FVec Ideal S2x32x32 .f32 := iblk m c 1 t
abbrev eblk (c : Dev nD) (t : Fin cfg0.N) : FVec Ideal S512x32 .f32 := iblk m c 2 t
abbrev wblk (c : Dev nD) (t : Fin cfg0.N) : FVec Ideal S32x512 .f32 := iblk m c 3 t

theorem xblk_apply (c : Dev nD) (t : Fin cfg0.N) (b : Fin 2) (ch : Fin 3) (h w : Fin 512) :
    xblk m c t (ix4 b ch h w) = m ((c : Thread nD τ).loc main_arg0) (ix4 (member t b) ch h w) := by
  obtain ⟨e0, e1, e2, e3, -⟩ := idx_facts t
  show V m c main_arg0 (((cfg0.win 0).blk t).view.emb (ix4 b ch h w)) = _
  rw [V_main_arg0]
  refine congrArg _ (funext fun a => Fin.ext ?_)
  match a with
  | ⟨0, _⟩ => show win0_0.index t (0 : Fin 4) * 2 + 1 * b.val = 2 * t.val + b.val; omega
  | ⟨1, _⟩ => show win0_0.index t (1 : Fin 4) * 3 + 1 * ch.val = ch.val; omega
  | ⟨2, _⟩ => show win0_0.index t (2 : Fin 4) * 512 + 1 * h.val = h.val; omega
  | ⟨3, _⟩ => show win0_0.index t (3 : Fin 4) * 512 + 1 * w.val = w.val; omega

theorem mblk_apply (c : Dev nD) (t : Fin cfg0.N) (b : Fin 2) (p q : Fin 32) :
    mblk m c t (ix3 b p q) = FloatOps.uitofp (F := Ideal) .f32 (m ((c : Thread nD τ).loc main_arg1) (ix3 (member t b) p q)) := by
  obtain ⟨-, -, -, -, e0, e1, e2, -⟩ := idx_facts t
  show V m c main_call0_v18 (((cfg0.win 1).blk t).view.emb (ix3 b p q)) = _
  rw [maskArr m c]
  show FloatOps.uitofp (F := Ideal) .f32 (m ((c : Thread nD τ).loc main_arg1) (((cfg0.win 1).blk t).view.emb (ix3 b p q))) = _
  refine congrArg (fun i => FloatOps.uitofp (F := Ideal) .f32 (m ((c : Thread nD τ).loc main_arg1) i)) (funext fun a => Fin.ext ?_)
  match a with
  | ⟨0, _⟩ => show win0_1.index t (0 : Fin 3) * 2 + 1 * b.val = 2 * t.val + b.val; omega
  | ⟨1, _⟩ => show win0_1.index t (1 : Fin 3) * 32 + 1 * p.val = p.val; omega
  | ⟨2, _⟩ => show win0_1.index t (2 : Fin 3) * 32 + 1 * q.val = q.val; omega

theorem eblk_apply (c : Dev nD) (t : Fin cfg0.N) (h : Fin 512) (p : Fin 32) :
    eblk m c t (ix2 h p) = if h.val / 16 = p.val then (1 : EReal) else 0 := by
  obtain ⟨-, -, -, -, -, -, -, e0, e1, -⟩ := idx_facts t
  rw [← rowMat_apply m c h p]
  show V m c main_call0_v8 (((cfg0.win 2).blk t).view.emb (ix2 h p)) = _
  refine congrArg _ (funext fun a => Fin.ext ?_)
  match a with
  | ⟨0, _⟩ => show win0_2.index t (0 : Fin 2) * 512 + 1 * h.val = h.val; omega
  | ⟨1, _⟩ => show win0_2.index t (1 : Fin 2) * 32 + 1 * p.val = p.val; omega

theorem wblk_apply (c : Dev nD) (t : Fin cfg0.N) (q : Fin 32) (w : Fin 512) :
    wblk m c t (ix2 q w) = if q.val = w.val / 16 then (1 : EReal) else 0 := by
  obtain ⟨-, -, -, -, -, -, -, -, -, e0, e1, -⟩ := idx_facts t
  rw [← colMat_apply m c q w]
  show V m c main_call0_v17 (((cfg0.win 3).blk t).view.emb (ix2 q w)) = _
  refine congrArg _ (funext fun a => Fin.ext ?_)
  match a with
  | ⟨0, _⟩ => show win0_3.index t (0 : Fin 2) * 32 + 1 * q.val = q.val; omega
  | ⟨1, _⟩ => show win0_3.index t (1 : Fin 2) * 512 + 1 * w.val = w.val; omega

/-! ## The pixel factor at a point's blocks -/

/-- The triple product collapses: first the sum over patch rows picks row h / 16, then the sum over patch columns
    picks column w / 16. -/
theorem pix_point (c : Dev nD) (t : Fin cfg0.N) (b : Fin 2) (h w : Fin 512) :
    pix (mblk m c t) (eblk m c t) (wblk m c t) b h w
      = FloatOps.uitofp (F := Ideal) .f32 (m ((c : Thread nD τ).loc main_arg1)
          (ix3 (member t b) ⟨h.val / 16, by have := h.isLt; omega⟩ ⟨w.val / 16, by have := w.isLt; omega⟩)) := by
  unfold pix
  have hrow : ∀ q : Fin 32, ∑ p : Fin 32, eblk m c t (ix2 h p) * mblk m c t (ix3 b p q)
      = mblk m c t (ix3 b ⟨h.val / 16, by have := h.isLt; omega⟩ q) := fun q =>
    sum_onehot_mul ⟨h.val / 16, by have := h.isLt; omega⟩ (fun p => eblk m c t (ix2 h p)) (fun p => mblk m c t (ix3 b p q))
      (fun p => by rw [eblk_apply]; exact if_congr ⟨fun e => Fin.ext e.symm, fun e => by rw [e]⟩ rfl rfl)
  rw [Finset.sum_congr rfl fun q _ => by rw [hrow q]]
  rw [sum_mul_onehot ⟨w.val / 16, by have := w.isLt; omega⟩ (fun q => mblk m c t (ix3 b ⟨h.val / 16, by have := h.isLt; omega⟩ q))
      (fun q => wblk m c t (ix2 q w))
      (fun q => by rw [wblk_apply]; exact if_congr ⟨fun e => Fin.ext e, fun e => by rw [e]⟩ rfl rfl)]
  exact mblk_apply m c t b _ _

/-! ## What a point writes back, and the array -/

/-- Where the output window's block puts its indices. -/
theorem emb_out (t : Fin cfg0.N) (b : Fin 2) (ch : Fin 3) (h w : Fin 512) :
    ((cfg0.win 4).blk t).view.emb (ix4 b ch h w) = ix4 (member t b) ch h w := by
  obtain ⟨-, -, -, -, -, -, -, -, -, -, -, e0, e1, e2, e3⟩ := idx_facts t
  funext a; apply Fin.ext
  match a with
  | ⟨0, _⟩ => show win0_4.index t (0 : Fin 4) * 2 + 1 * b.val = 2 * t.val + b.val; omega
  | ⟨1, _⟩ => show win0_4.index t (1 : Fin 4) * 3 + 1 * ch.val = ch.val; omega
  | ⟨2, _⟩ => show win0_4.index t (2 : Fin 4) * 512 + 1 * h.val = h.val; omega
  | ⟨3, _⟩ => show win0_4.index t (3 : Fin 4) * 512 + 1 * w.val = w.val; omega

/-- The block function at the point's blocks is the masked image at the block's place in the array. -/
theorem block_point (c : Dev nD) (t : Fin cfg0.N) (y : S2x3x512x512.Idx) :
    blockOut (xblk m c t) (mblk m c t) (eblk m c t) (wblk m c t) y
      = masked (m ((c : Thread nD τ).loc main_arg0)) (m ((c : Thread nD τ).loc main_arg1)) (((cfg0.win 4).blk t).view.emb y) := by
  obtain ⟨b, ch, h, w, rfl⟩ : ∃ (b : Fin 2) (ch : Fin 3) (h w : Fin 512), y = ix4 b ch h w := ⟨y 0, y 1, y 2, y 3, eq_ix4 y⟩
  rw [blockOut_apply, xblk_apply, pix_point, emb_out]
  rfl

/-- WHAT POINT `t` WRITES BACK is block `t` of the masked image. -/
theorem flushed_eq (c : Dev nD) (t : Fin cfg0.N) :
    (dats m 0 c).flushed 4 t = ((cfg0.win 4).blk t).view.read (Elt Ideal)
      (masked (m ((c : Thread nD τ).loc main_arg0)) (m ((c : Thread nD τ).loc main_arg1))) := by
  rw [Value.flushed4, out_eq (iblk m c 0 t) (iblk m c 1 t) (iblk m c 2 t) (iblk m c 3 t)]
  funext y
  exact block_point m c t y

/-- An index of the array is in point `t`'s block iff each coordinate is in the block's range on its axis. -/
theorem mem_blk (t : Fin cfg0.N) (i : S64x3x512x512.Idx) :
    i ∈ ((cfg0.win 4).blk t).view.set ↔ ∀ a : Fin 4, win0_4.index t a * S2x3x512x512.size a ≤ (i a).val ∧ (i a).val < win0_4.index t a * S2x3x512x512.size a + S2x3x512x512.size a := by
  show i ∈ ((View.whole main_v0).slice (win0_4.rect t)).set ↔ _
  rw [View.set_slice_whole, Rect.mem_set_unit]
  exact Iff.rfl

/-- Every index of the output array lies in the block of the point that handles its batch member. -/
theorem cover (i : S64x3x512x512.Idx) :
    ∃ t : Fin cfg0.N, (cfg0.win 4).flush t = true ∧ i ∈ ((cfg0.win 4).blk t).view.set := by
  have h0 : (i 0).val < 64 := (i 0).isLt
  have h1 : (i 1).val < 3 := (i 1).isLt
  have h2 : (i 2).val < 512 := (i 2).isLt
  have h3 : (i 3).val < 512 := (i 3).isLt
  refine ⟨⟨(i 0).val / 2, lt_points _ (by omega)⟩, flush0_4 _, ?_⟩
  obtain ⟨-, -, -, -, -, -, -, -, -, -, -, e0, e1, e2, e3⟩ := idx_facts ⟨(i 0).val / 2, lt_points _ (by omega)⟩
  have e0' : win0_4.index ⟨(i 0).val / 2, lt_points _ (by omega)⟩ (0 : Fin 4) = (i 0).val / 2 := e0
  rw [mem_blk]
  intro a
  match a with
  | ⟨0, _⟩ => show win0_4.index _ (0 : Fin 4) * 2 ≤ (i 0).val ∧ (i 0).val < win0_4.index _ (0 : Fin 4) * 2 + 2; omega
  | ⟨1, _⟩ => show win0_4.index _ (1 : Fin 4) * 3 ≤ (i 1).val ∧ (i 1).val < win0_4.index _ (1 : Fin 4) * 3 + 3; omega
  | ⟨2, _⟩ => show win0_4.index _ (2 : Fin 4) * 512 ≤ (i 2).val ∧ (i 2).val < win0_4.index _ (2 : Fin 4) * 512 + 512; omega
  | ⟨3, _⟩ => show win0_4.index _ (3 : Fin 4) * 512 ≤ (i 3).val ∧ (i 3).val < win0_4.index _ (3 : Fin 4) * 512 + 512; omega

/-- THE ARRAY after the run is the masked image of the arguments as launched. -/
theorem final (c : Dev nD) :
    (dats m 0 c).arrAt 4 cfg0.N = masked (m ((c : Thread nD τ).loc main_arg0)) (m ((c : Thread nD τ).loc main_arg1)) :=
  (dats m 0 c).arrAt_eq_of_cover 4 _ (fun t _ => flushed_eq m c t) cover

/-- The kernel's run: the result array at the masked image, the arguments unchanged. -/
theorem run : θ_run defs (onTc (τ := τ) (main (F := Ideal))) ⟨m, fun _ => 0, ρ⟩ fun r => ∀ c : Dev nD,
      r.2.mem ((c : Thread nD τ).loc main_v0) = masked (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.Ref.lean ====
/-
  The reference is the specification. The reference repeats the mask sixteen times along rows and along columns by a
  broadcast into a new axis followed by a reshape that merges it (twice), adds the unit channel axis, converts the bits
  to floats, broadcasts over the three channels and multiplies. Read at an index, the chain of layout operations sends
  pixel (b, c, h, w) to mask entry (b, h / 16, w / 16): row-major arithmetic on the coordinates.
-/
import proofs.«156275_j4492535792036_1_alg».proof.Proof.Gen.ReferenceIdeal.Read
import proofs.«156275_j4492535792036_1_alg».proof.Proof.Spec

noncomputable section

namespace Cert.ReferenceIdeal.RefValue

open Cert.ReferenceIdeal Cert.ReferenceIdeal.Read Cert.PatchMask
open Idealize.ShloMosaic Idealize.ShloMosaic.ValueIdx

/-- The composed index map of the reference's layout operations is the patch map. -/
theorem idx_chain (i : S64x3x512x512.Idx) :
    idx_main_v0 (idx_main_v1 (idx_main_v2 (idx_main_v3 (idx_main_v4 (idx_main_v6 i))))) = patchOf i := by
  have h0 : (i 0).val < 64 := (i 0).isLt
  have h2 : (i 2).val < 512 := (i 2).isLt
  have h3 : (i 3).val < 512 := (i 3).isLt
  funext a; apply Fin.ext
  match a with
  | ⟨0, _⟩ => dsimp only [patchOf, ix3]; omega
  | ⟨1, _⟩ => dsimp only [patchOf, ix3]; omega
  | ⟨2, _⟩ => dsimp only [patchOf, ix3]; omega

/-- The reference's last stage is the masked image. -/
theorem ref_eq (x0 : (⟨S64x3x512x512, .f32⟩ : BufTy).Contents (Elt Ideal)) (x1 : (⟨S64x32x32, .i1⟩ : BufTy).Contents (Elt Ideal)) :
    val_main_v7 (F := Ideal) x0 x1 = masked x0 x1 := by
  funext i
  rw [val_main_v7_apply, val_main_v6_apply, val_main_v5_apply, val_main_v4_apply, val_main_v3_apply, val_main_v2_apply,
    val_main_v1_apply, val_main_v0_apply, idx_chain]
  rfl

end Cert.ReferenceIdeal.RefValue

end
-- ==== Proof.lean ====
/-
  The kernel multiplies an image x : [64, 3, 512, 512] by a keep mask given per 16×16 patch, [64, 32, 32]. It expands
  the mask to pixel resolution on the matrix unit, as E · M · W with E [512, 32] and W [32, 512] the 0/1 matrices
  whose entries are "h / 16 = p" and "q = w / 16"; the reference expands it by repeating entries (a broadcast into a
  new axis and a reshape, twice). Over the extended reals a sum with a 0/1 one-hot factor is the one summand where the
  factor is 1, since 0 annihilates every extended real: no finiteness of x or of the mask's floats is needed, and the
  two programs compute the same array, x times the pixel's patch bit as 0 or 1 (`Cert.PatchMask.masked`).

  The kernel's value is read off its run block by block (Proof/Body.lean: what the body leaves in a block; Proof/Host.lean:
  the expansion matrices the host builds; Proof/Blocks.lean: the collapse of the triple product at a grid point and the
  cover of the array by the 32 blocks); the reference's value is its run read one operation at a time
  (Proof/Ref.lean). The idealization rewrote nothing, so `preserves` is trivial.
-/
import proofs.«156275_j4492535792036_1_alg».proof.Defs
import proofs.«156275_j4492535792036_1_alg».proof.Proof.Gen.Kernel
import proofs.«156275_j4492535792036_1_alg».proof.Proof.Gen.Kernel.Skeleton
import proofs.«156275_j4492535792036_1_alg».proof.Proof.Gen.Kernel.Launch
import proofs.«156275_j4492535792036_1_alg».proof.Proof.Gen.Kernel.Points
import proofs.«156275_j4492535792036_1_alg».proof.Proof.Gen.Kernel.Frame
import proofs.«156275_j4492535792036_1_alg».proof.Proof.Gen.KernelIdeal
import proofs.«156275_j4492535792036_1_alg».proof.Proof.Gen.KernelIdeal.Skeleton
import proofs.«156275_j4492535792036_1_alg».proof.Proof.Gen.KernelIdeal.Launch
import proofs.«156275_j4492535792036_1_alg».proof.Proof.Gen.KernelIdeal.Points
import proofs.«156275_j4492535792036_1_alg».proof.Proof.Gen.KernelIdeal.Frame
import proofs.«156275_j4492535792036_1_alg».proof.Proof.Gen.ReferenceIdeal
import proofs.«156275_j4492535792036_1_alg».proof.Proof.Gen.Pre_finite_inputs
import proofs.«156275_j4492535792036_1_alg».proof.Proof.Gen.KernelIdeal.Value
import proofs.«156275_j4492535792036_1_alg».proof.Proof.Gen.ReferenceIdeal.Run
import proofs.«156275_j4492535792036_1_alg».proof.Proof.Gen.ReferenceIdeal.Read
import proofs.«156275_j4492535792036_1_alg».proof.Proof.Blocks
import proofs.«156275_j4492535792036_1_alg».proof.Proof.Ref
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel at the ideal values. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the masked image of the (agreeing) arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.ref_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
